-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x128x512 : Shape := ⟨3, ![2, 128, 512]⟩
abbrev S1024x1024 : Shape := ⟨2, ![1024, 1024]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x128x512 : S_.BroadcastsInDim S2x128x512 (![] : Fin 0 → Fin S2x128x512.rank)
  reducesTo_S2x128x512_S_d0_1_2 : S2x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x512x512 .f32) (main_arg1 : FVec F S2x128x512 .f32) (main_arg2 : FVec F S1024x1024 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x128x512 .f32 := Host.absf main_arg1
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v4 main_v5
  let main_c_1 : IVec S_ 1 := constantI S_ 1 1#1
  let main_v7 : IVec S_ 1 := (fun x v => Host.reduce IntOp.andi x v reducesTo_S2x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x512x1024 : Shape := ⟨3, ![2, 512, 1024]⟩
abbrev S1x512x512 : Shape := ⟨3, ![1, 512, 512]⟩
abbrev S1x512x1024 : Shape := ⟨3, ![1, 512, 1024]⟩
abbrev S512x512 : Shape := ⟨2, ![512, 512]⟩
abbrev S512x1024 : Shape := ⟨2, ![512, 1024]⟩
abbrev S2x128x1024 : Shape := ⟨3, ![2, 128, 1024]⟩
abbrev S1x128x512 : Shape := ⟨3, ![1, 128, 512]⟩
abbrev S1x128x1024 : Shape := ⟨3, ![1, 128, 1024]⟩
abbrev S128x512 : Shape := ⟨2, ![128, 512]⟩
abbrev S128x1024 : Shape := ⟨2, ![128, 1024]⟩
abbrev S2x512x128x1024 : Shape := ⟨4, ![2, 512, 128, 1024]⟩
abbrev S1x8x1024 : Shape := ⟨3, ![1, 8, 1024]⟩
abbrev S1x8x128x1024 : Shape := ⟨4, ![1, 8, 128, 1024]⟩
abbrev S8x1024 : Shape := ⟨2, ![8, 1024]⟩
abbrev S8x1x1024 : Shape := ⟨3, ![8, 1, 1024]⟩
abbrev S8x128x1024 : Shape := ⟨3, ![8, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S2x512x1024, .f32⟩
  | .hbm, ⟨6, _⟩ => ⟨S2x128x1024, .f32⟩
  | .hbm, ⟨7, _⟩ => ⟨S2x512x128x1024, .f32⟩
  | .local _ .vmem, ⟨0, _⟩ => ⟨S1x512x512, .f32⟩
  | .local _ .vmem, ⟨1, _⟩ => ⟨S1x512x512, .f32⟩
  | .local _ .vmem, ⟨2, _⟩ => ⟨S1024x512, .f32⟩
  | .local _ .vmem, ⟨3, _⟩ => ⟨S1x512x1024, .f32⟩
  | .local _ .vmem, ⟨4, _⟩ => ⟨S1x512x1024, .f32⟩
  | .local _ .vmem, ⟨5, _⟩ => ⟨S1x128x512, .f32⟩
  | .local _ .vmem, ⟨6, _⟩ => ⟨S1x128x512, .f32⟩
  | .local _ .vmem, ⟨7, _⟩ => ⟨S1024x512, .f32⟩
  | .local _ .vmem, ⟨8, _⟩ => ⟨S1x128x1024, .f32⟩
  | .local _ .vmem, ⟨9, _⟩ => ⟨S1x128x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x8x128x1024, .f32⟩
  | .local _ .vmem, ⟨15, _⟩ => ⟨S1x8x128x1024, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 64], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8x128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S1024x1024_S1024x512_0_0 : S1024x1024.Slices ![0, 0] S1024x512
  slices_S1024x1024_S1024x512_0_512 : S1024x1024.Slices ![0, 512] S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S8x1x1024 : S8x1024.ShapeCasts S8x1x1024
  broadcasts_S8x1x1024_S8x128x1024 : S8x1x1024.Broadcasts S8x128x1024
  broadcasts_S1x128x1024_S8x128x1024 : S1x128x1024.Broadcasts S8x128x1024
  inb_S1x8x128x1024_S1x8x128x1024_0_0_0_0 : ∀ a, (![0, 0, 0, 0] : Fin 4 → Nat) a + S1x8x128x1024.size a ≤ S1x8x128x1024.size a
  h_S1x8x128x1024 : 0 < S1x8x128x1024.numel
  shapeCasts_S1x8x128x1024_S8x128x1024 : S1x8x128x1024.ShapeCasts S8x128x1024
  shapeCasts_S8x128x1024_S1x8x128x1024 : S8x128x1024.ShapeCasts S1x8x128x1024
  dot_S512x512_S1024x512_S512x1024_1_1_0_0_n_n_wf : DotDims.WF S512x512 S1024x512 S512x1024 [1] [1] [0] [0] [] []
  dot_S128x512_S1024x512_S128x1024_1_1_0_0_n_n_wf : DotDims.WF S128x512 S1024x512 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x512x512.size a
  hwx0_0 : ∀ i : grid0.Coords, EltTy.bits .f32 = 32 ∨ (Rect.block (s := S2x512x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x512x1024.size a
  hwx0_2 : ∀ i : grid0.Coords, EltTy.bits .f32 = 32 ∨ (Rect.block (s := S2x512x1024) S1x512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S2x128x512.size a
  hwx1_0 : ∀ i : grid1.Coords, EltTy.bits .f32 = 32 ∨ (Rect.block (s := S2x128x512) S1x128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S2x128x1024.size a
  hwx1_2 : ∀ i : grid1.Coords, EltTy.bits .f32 = 32 ∨ (Rect.block (s := S2x128x1024) S1x128x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x1024.size a ≤ S2x512x1024.size a
  hwx2_0 : ∀ i : grid2.Coords, EltTy.bits .f32 = 32 ∨ (Rect.block (s := S2x512x1024) S1x8x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1024.size a ≤ S2x128x1024.size a
  hwx2_1 : ∀ i : grid2.Coords, EltTy.bits .f32 = 32 ∨ (Rect.block (s := S2x128x1024) S1x128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x128x1024.size a ≤ S2x512x128x1024.size a
  hwx2_2 : ∀ i : grid2.Coords, EltTy.bits .f32 = 32 ∨ (Rect.block (s := S2x512x128x1024) S1x8x128x1024.size (cc2_transform_2 i) (hinb2_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1x8x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x8x128x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x512x512 : Shape := ⟨3, ![2, 512, 512]⟩
abbrev S2x128x512 : Shape := ⟨3, ![2, 128, 512]⟩
abbrev S1024x1024 : Shape := ⟨2, ![1024, 1024]⟩
abbrev S1024x512 : Shape := ⟨2, ![1024, 512]⟩
abbrev S2x512x1024 : Shape := ⟨3, ![2, 512, 1024]⟩
abbrev S2x128x1024 : Shape := ⟨3, ![2, 128, 1024]⟩
abbrev S2x512x1x1024 : Shape := ⟨4, ![2, 512, 1, 1024]⟩
abbrev S2x1x128x1024 : Shape := ⟨4, ![2, 1, 128, 1024]⟩
abbrev S2x512x128x1024 : Shape := ⟨4, ![2, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S2x512x1024, .f32⟩
  | .hbm, ⟨6, _⟩ => ⟨S2x128x1024, .f32⟩
  | .hbm, ⟨7, _⟩ => ⟨S2x512x1x1024, .f32⟩
  | .hbm, ⟨8, _⟩ => ⟨S2x1x128x1024, .f32⟩
  | .hbm, ⟨9, _⟩ => ⟨S2x512x128x1024, .f32⟩
  | .hbm, ⟨10, _⟩ => ⟨S2x512x128x1024, .f32⟩
  | .hbm, ⟨11, _⟩ => ⟨S2x512x128x1024, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S2x512x1024_S2x512x1x1024_0_1_3 : S2x512x1024.BroadcastsInDim S2x512x1x1024 (![0, 1, 3] : Fin 3 → Fin S2x512x1x1024.rank)
  bcast_S2x128x1024_S2x1x128x1024_0_2_3 : S2x128x1024.BroadcastsInDim S2x1x128x1024 (![0, 2, 3] : Fin 3 → Fin S2x1x128x1024.rank)
  bcast_S2x512x1x1024_S2x512x128x1024_0_1_2_3 : S2x512x1x1024.BroadcastsInDim S2x512x128x1024 (![0, 1, 2, 3] : Fin 4 → Fin S2x512x128x1024.rank)
  bcast_S2x1x128x1024_S2x512x128x1024_0_1_2_3 : S2x1x128x1024.BroadcastsInDim S2x512x128x1024 (![0, 1, 2, 3] : Fin 4 → Fin S2x512x128x1024.rank)
  dot_S2x512x512_S1024x512_S2x512x1024_2_1_01_0_n_n_wf : DotDims.WF S2x512x512 S1024x512 S2x512x1024 [2] [1] [0, 1] [0] [] []
  dot_S2x128x512_S1024x512_S2x128x1024_2_1_01_0_n_n_wf : DotDims.WF S2x128x512 S1024x512 S2x128x1024 [2] [1] [0, 1] [0] [] []

variable [Facts₀]

def dot_S2x512x512_S1024x512_S2x512x1024_2_1_01_0_n_n : DotDims S2x512x512 S1024x512 S2x512x1024 where
  lhsContracting := [2]
  rhsContracting := [1]
  lhsNonContracting := [0, 1]
  rhsNonContracting := [0]
  lhsBatch := []
  rhsBatch := []
  wf := dot_S2x512x512_S1024x512_S2x512x1024_2_1_01_0_n_n_wf
def dot_S2x128x512_S1024x512_S2x128x1024_2_1_01_0_n_n : DotDims S2x128x512 S1024x512 S2x128x1024 where
  lhsContracting := [2]
  rhsContracting := [1]
  lhsNonContracting := [0, 1]
  rhsNonContracting := [0]
  lhsBatch := []
  rhsBatch := []
  wf := dot_S2x128x512_S1024x512_S2x128x1024_2_1_01_0_n_n_wf

class Facts : Prop extends Facts₀ where

variable [Facts]
-- ==== Proof.Spec.lean ====
/-
  The function both programs compute, index by index, over the extended reals.

  A joint network adds, for every pair of an encoder frame `t` and a decoder step `u` of batch element `b`, the
  two linear projections onto the vocabulary: `out[b, t, u, v] = ⟨enc[b, t, ·], W_enc[v, ·]⟩ + ⟨dec[b, u, ·], W_dec[v, ·]⟩`,
  where `W_enc` and `W_dec` are the left and right halves of one weight matrix. `proj` is one such projection
  (every row of a batch of matrices against every row of a weight matrix, contracted over the 512 features) and
  `joint` is the broadcast sum of an encoder-side and a decoder-side projection.
-/
import Idealize.ShloMosaic.PureOps.Ideal
import Idealize.ShloMosaic.Lib.ValueIdx

noncomputable section

open scoped BigOperators

namespace Cert.Joint

open Idealize.ShloMosaic Idealize.ShloMosaic.ValueIdx

/-- `proj x w` at `(b, s, v)` is the inner product of row `(b, s)` of `x` with row `v` of `w`: `∑ k, x[b, s, k] · w[v, k]`. -/
def proj {S : Nat} (x : (⟨3, ![2, S, 512]⟩ : Shape).Idx → EReal) (w : (⟨2, ![1024, 512]⟩ : Shape).Idx → EReal) :
    (⟨3, ![2, S, 1024]⟩ : Shape).Idx → EReal :=
  fun i => ∑ k : Fin 512, x (ix3 (i 0) (i 1) k) * w (ix2 (i 2) k)

/-- `joint e d` at `(b, t, u, v)` is `e[b, t, v] + d[b, u, v]`: each side broadcast along the other's sequence axis. -/
def joint (e : (⟨3, ![2, 512, 1024]⟩ : Shape).Idx → EReal) (d : (⟨3, ![2, 128, 1024]⟩ : Shape).Idx → EReal) :
    (⟨4, ![2, 512, 128, 1024]⟩ : Shape).Idx → EReal :=
  fun i => e (ix3 (i 0) (i 1) (i 3)) + d (ix3 (i 0) (i 2) (i 3))

theorem proj_apply {S : Nat} (x : (⟨3, ![2, S, 512]⟩ : Shape).Idx → EReal) (w : (⟨2, ![1024, 512]⟩ : Shape).Idx → EReal)
    (b : Fin 2) (s : Fin S) (v : Fin 1024) :
    proj x w (ix3 b s v) = ∑ k : Fin 512, x (ix3 b s k) * w (ix2 v k) := rfl

theorem joint_apply (e : (⟨3, ![2, 512, 1024]⟩ : Shape).Idx → EReal) (d : (⟨3, ![2, 128, 1024]⟩ : Shape).Idx → EReal)
    (b : Fin 2) (t : Fin 512) (u : Fin 128) (v : Fin 1024) :
    joint e d (ix4 b t u v) = e (ix3 b t v) + d (ix3 b u v) := rfl

end Cert.Joint

end
-- ==== Proof.EncProj.lean ====
/-
  The first kernel region: the encoder-side projection.

  The grid walks the two batch elements. At batch element `b` the body multiplies the `[512, 512]` block of encoder
  frames by the whole `[1024, 512]` weight slice, contracting the feature axis of both, into a zero accumulator, and
  stores the `[512, 1024]` product as block `b` of the result. Over the extended reals the narrowing of the operands
  to bf16 is the identity and the product into zero is the plain sum, so entry `(t, v)` of the block is
  `∑ k, enc[b, t, k] · w[v, k]`; the two blocks tile the result, which therefore ends as `proj enc w`.
-/
import proofs.«139350_j2920577761292_1_alg».proof.Proof.Gen.KernelIdeal.Frame
import proofs.«139350_j2920577761292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EncProj

open Cert.KernelIdeal Cert.KernelIdeal.Gen Cert.Joint Idealize.ShloMosaic Idealize.ShloMosaic.TcCoe Idealize.ShloMosaic.ValueIdx
open Idealize.SL.Sem
open Idealize.ShloMosaic.Pipeline (Dat)

/-! ## The matrix product's operand indices -/

theorem lhs_axis0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_axis1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhs_axis0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_axis1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The product into the zero accumulator, read at `(p, q)`: row `p` of the left operand against row `q` of the right. -/
theorem matmul_zero_apply (l : FVec Ideal S512x512 .bf16) (r : FVec Ideal S1024x512 .bf16) (p : Fin 512) (q : Fin 1024) :
    matmul dot_S512x512_S1024x512_S512x1024_1_1_0_0_n_n none l r (constant (F := Ideal) S512x1024 .f32 0x00000000#32) (ix2 p q)
      = ∑ k : Fin 512, l (ix2 p k) * r (ix2 q k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 p q) ((ValueIdx.contrEquiv1 dot_S512x512_S1024x512_S512x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S512x512_S1024x512_S512x1024_1_1_0_0_n_n.rhsIdx (ix2 p q) ((ValueIdx.contrEquiv1 dot_S512x512_S1024x512_S512x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The body's stored value at an index -/

/-- Entry `(p, q)` of the stored block: row `p` of the loaded frames against row `q` of the loaded weights. -/
theorem payload_apply (x0 : Vec Ideal S1x512x512 .f32) (x1 : Vec Ideal S1024x512 .f32) (u : Fin 1) (p : Fin 512) (q : Fin 1024) :
    k0_pay1 (F := Ideal) x0 x1 (ix3 u p q) = ∑ k : Fin 512, x0 (ix3 (0 : Fin 1) p k) * x1 (ix2 q k) := by
  unfold k0_pay1
  refine (shapeCast_ab_1ab_apply _ shapeCasts_S512x1024_S1x512x1024 u p q).trans ?_
  refine (matmul_zero_apply _ _ p q).trans ?_
  refine Finset.sum_congr rfl fun k _ => ?_
  rw [truncf_apply, truncf_apply, shapeCast_self, shapeCast_1ab_ab_apply]

/-! ## From the blocks to the array, at any contents `V` the region is entered from -/

section Blocks

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the two grid points: the frames' block and the result's block sit at the same batch
    element on the leading axis and at zero on the other two; the weights' block is the whole slice. -/
theorem index_facts : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0
    ∧ win0_2.index t (0 : Fin 3) ≤ 1 :=
  (by decide +kernel : ∀ t : Fin grid0.N, _)

/-- Every batch element is some grid point's. -/
theorem index_onto : ∀ b : Fin 2, ∃ t : Fin cfg0.N, win0_2.index t = ![b.val, 0, 0] :=
  (by decide +kernel : ∀ b : Fin 2, ∃ t : Fin grid0.N, win0_2.index t = ![b.val, 0, 0])

/-- The batch element grid point `t` works on. -/
def batchOf (t : Fin cfg0.N) : Fin 2 := ⟨win0_2.index t (0 : Fin 3), by have := (index_facts t).2.2.2.2.2.2.2; omega⟩

/-- Entry `(p, q)` of the result's block at point `t` is entry `(batchOf t, p, q)` of the result. -/
theorem result_emb (t : Fin cfg0.N) (u : Fin 1) (p : Fin 512) (q : Fin 1024) :
    ((cfg0.win 2).blk t).view.emb (ix3 u p q) = ix3 (batchOf t) p q := by
  obtain ⟨e0, e1, e2, e3, e4, e5, e6, e7⟩ := index_facts t
  funext a; apply Fin.ext
  match a with
  | ⟨0, _⟩ => show win0_2.index t (0 : Fin 3) * 1 + 1 * u.val = win0_2.index t (0 : Fin 3); omega
  | ⟨1, _⟩ => show win0_2.index t (1 : Fin 3) * 512 + 1 * p.val = p.val; omega
  | ⟨2, _⟩ => show win0_2.index t (2 : Fin 3) * 1024 + 1 * q.val = q.val; omega

/-- The frames' block at point `t` is batch element `batchOf t` of the frames. -/
theorem frames_read (c : Dev nD) (t : Fin cfg0.N) (p k : Fin 512) :
    iblk0 V c 0 t (ix3 (0 : Fin 1) p k) = V c main_arg0 (ix3 (batchOf t) p k) := by
  obtain ⟨e0, e1, e2, e3, e4, e5, e6, e7⟩ := index_facts t
  show V c main_arg0 (((cfg0.win 0).blk t).view.emb (ix3 (0 : Fin 1) p k)) = V c main_arg0 (ix3 (batchOf t) p k)
  refine congrArg (V c main_arg0) (funext fun a => Fin.ext ?_)
  match a with
  | ⟨0, _⟩ => show win0_0.index t (0 : Fin 3) * 1 + 1 * 0 = win0_2.index t (0 : Fin 3); omega
  | ⟨1, _⟩ => show win0_0.index t (1 : Fin 3) * 512 + 1 * p.val = p.val; omega
  | ⟨2, _⟩ => show win0_0.index t (2 : Fin 3) * 512 + 1 * k.val = k.val; omega

/-- The weights' block at every point is the whole weight slice. -/
theorem weights_read (c : Dev nD) (t : Fin cfg0.N) (q : Fin 1024) (k : Fin 512) :
    iblk0 V c 1 t (ix2 q k) = V c main_v0 (ix2 q k) := by
  obtain ⟨e0, e1, e2, e3, e4, e5, e6, e7⟩ := index_facts t
  show V c main_v0 (((cfg0.win 1).blk t).view.emb (ix2 q k)) = V c main_v0 (ix2 q k)
  refine congrArg (V c main_v0) (funext fun a => Fin.ext ?_)
  match a with
  | ⟨0, _⟩ => show win0_1.index t (0 : Fin 2) * 1024 + 1 * q.val = q.val; omega
  | ⟨1, _⟩ => show win0_1.index t (1 : Fin 2) * 512 + 1 * k.val = k.val; omega

/-- What point `t` writes back is block `t` of the projection of the arrays the region is entered with. -/
theorem flushed_eq (c : Dev nD) (t : Fin cfg0.N) :
    (dat0 V c).flushed 2 t = ((cfg0.win 2).blk t).view.read (Elt Ideal) (proj (V c main_arg0) (V c main_v0)) := by
  show (cfg0.win 2).cut (grid0.coords t) ((dat0 V c).after 2 t) = _
  rw [after0_2]
  unfold out0_2
  rw [View.canon_unit_zero zeros3]
  simp only [View.ld_unit_zero (S := S1x512x512) zeros3, View.ld_unit_zero (S := S1024x512) zeros2]
  funext j
  obtain ⟨u, p, q, rfl⟩ : ∃ (u : Fin 1) (p : Fin 512) (q : Fin 1024), j = ix3 u p q := ⟨j 0, j 1, j 2, eq_ix3 j⟩
  show k0_pay1 (F := Ideal) (iblk0 V c 0 t) (iblk0 V c 1 t) (ix3 u p q)
    = proj (V c main_arg0) (V c main_v0) (((cfg0.win 2).blk t).view.emb (ix3 u p q))
  rw [result_emb t u p q, proj_apply]
  refine (payload_apply (iblk0 V c 0 t) (iblk0 V c 1 t) u p q).trans ?_
  refine Finset.sum_congr rfl fun k _ => ?_
  rw [frames_read V c t p k, weights_read V c t q k]

/-- An index of the result is in point `t`'s block iff each coordinate is in the block's range on its axis. -/
theorem mem_blk (t : Fin cfg0.N) (i : S2x512x1024.Idx) :
    i ∈ ((cfg0.win 2).blk t).view.set ↔ ∀ a : Fin 3, win0_2.index t a * S1x512x1024.size a ≤ (i a).val ∧ (i a).val < win0_2.index t a * S1x512x1024.size a + S1x512x1024.size a := by
  show i ∈ ((View.whole main_v2).slice (win0_2.rect t)).set ↔ _
  rw [View.set_slice_whole, Rect.mem_set_unit]
  exact Iff.rfl

/-- The two blocks cover the result: index `(b, p, q)` is in the block of the point that works on `b`. -/
theorem cover (i : S2x512x1024.Idx) : ∃ t : Fin cfg0.N, (cfg0.win 2).flush t = true ∧ i ∈ ((cfg0.win 2).blk t).view.set := by
  have hi0 : (i 0).val < 2 := (i 0).isLt
  have hi1 : (i 1).val < 512 := (i 1).isLt
  have hi2 : (i 2).val < 1024 := (i 2).isLt
  obtain ⟨t, ht⟩ := index_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The result array after the region: the projection of the frames by the weight slice, as the region found them. -/
theorem final (c : Dev nD) : (dat0 V c).arrAt 2 cfg0.N = proj (V c main_arg0) (V c main_v0) :=
  (dat0 V c).arrAt_eq_of_cover 2 _ (fun t _ => flushed_eq V c t) cover

end Blocks

end Cert.KernelIdeal.EncProj

end
-- ==== Proof.DecProj.lean ====
/-
  The second kernel region: the decoder-side projection.

  The grid walks the two batch elements. At batch element `b` the body multiplies the `[128, 512]` block of decoder
  steps by the whole `[1024, 512]` weight slice, contracting the feature axis of both, into a zero accumulator, and
  stores the `[128, 1024]` product as block `b` of the result. Over the extended reals the narrowing of the operands
  to bf16 is the identity and the product into zero is the plain sum, so entry `(u, v)` of the block is
  `∑ k, dec[b, u, k] · w[v, k]`; the two blocks tile the result, which therefore ends as `proj dec w`.
-/
import proofs.«139350_j2920577761292_1_alg».proof.Proof.Gen.KernelIdeal.Frame
import proofs.«139350_j2920577761292_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DecProj

open Cert.KernelIdeal Cert.KernelIdeal.Gen Cert.Joint Idealize.ShloMosaic Idealize.ShloMosaic.TcCoe Idealize.ShloMosaic.ValueIdx
open Idealize.SL.Sem
open Idealize.ShloMosaic.Pipeline (Dat)

/-! ## The matrix product's operand indices -/

theorem lhs_axis0 (i : S128x1024.Idx) (q : dot_S128x512_S1024x512_S128x1024_1_1_0_0_n_n.contr.Idx) :
    (dot_S128x512_S1024x512_S128x1024_1_1_0_0_n_n.lhsIdx i q 0).val = (i 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem lhs_axis1 (i : S128x1024.Idx) (q : dot_S128x512_S1024x512_S128x1024_1_1_0_0_n_n.contr.Idx) :
    (dot_S128x512_S1024x512_S128x1024_1_1_0_0_n_n.lhsIdx i q 1).val = (q ⟨0, by decide⟩).val :=
  dot_S128x512_S1024x512_S128x1024_1_1_0_0_n_n.lhsIdx_val_of_single rfl i q
theorem rhs_axis0 (i : S128x1024.Idx) (q : dot_S128x512_S1024x512_S128x1024_1_1_0_0_n_n.contr.Idx) :
    (dot_S128x512_S1024x512_S128x1024_1_1_0_0_n_n.rhsIdx i q 0).val = (i 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem rhs_axis1 (i : S128x1024.Idx) (q : dot_S128x512_S1024x512_S128x1024_1_1_0_0_n_n.contr.Idx) :
    (dot_S128x512_S1024x512_S128x1024_1_1_0_0_n_n.rhsIdx i q 1).val = (q ⟨0, by decide⟩).val :=
  dot_S128x512_S1024x512_S128x1024_1_1_0_0_n_n.rhsIdx_val_of_single rfl i q

/-- The product into the zero accumulator, read at `(p, q)`: row `p` of the left operand against row `q` of the right. -/
theorem matmul_zero_apply (l : FVec Ideal S128x512 .bf16) (r : FVec Ideal S1024x512 .bf16) (p : Fin 128) (q : Fin 1024) :
    matmul dot_S128x512_S1024x512_S128x1024_1_1_0_0_n_n none l r (constant (F := Ideal) S128x1024 .f32 0x00000000#32) (ix2 p q)
      = ∑ k : Fin 512, l (ix2 p k) * r (ix2 q k) := by
  simp only [matmul]
  rw [Ideal.matmul_constant_zero_apply, ← Equiv.sum_comp (ValueIdx.contrEquiv1 dot_S128x512_S1024x512_S128x1024_1_1_0_0_n_n 512 rfl rfl).symm]
  refine Finset.sum_congr rfl fun k _ => ?_
  have hk := ValueIdx.contrEquiv1_symm_val dot_S128x512_S1024x512_S128x1024_1_1_0_0_n_n 512 rfl rfl k
  have el : dot_S128x512_S1024x512_S128x1024_1_1_0_0_n_n.lhsIdx (ix2 p q) ((ValueIdx.contrEquiv1 dot_S128x512_S1024x512_S128x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S128x512_S1024x512_S128x1024_1_1_0_0_n_n.rhsIdx (ix2 p q) ((ValueIdx.contrEquiv1 dot_S128x512_S1024x512_S128x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## The body's stored value at an index -/

/-- Entry `(p, q)` of the stored block: row `p` of the loaded steps against row `q` of the loaded weights. -/
theorem payload_apply (x0 : Vec Ideal S1x128x512 .f32) (x1 : Vec Ideal S1024x512 .f32) (u : Fin 1) (p : Fin 128) (q : Fin 1024) :
    k1_pay1 (F := Ideal) x0 x1 (ix3 u p q) = ∑ k : Fin 512, x0 (ix3 (0 : Fin 1) p k) * x1 (ix2 q k) := by
  unfold k1_pay1
  refine (shapeCast_ab_1ab_apply _ shapeCasts_S128x1024_S1x128x1024 u p q).trans ?_
  refine (matmul_zero_apply _ _ p q).trans ?_
  refine Finset.sum_congr rfl fun k _ => ?_
  rw [truncf_apply, truncf_apply, shapeCast_self, shapeCast_1ab_ab_apply]

/-! ## From the blocks to the array, at any contents `V` the region is entered from -/

section Blocks

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the two grid points: the steps' block and the result's block sit at the same batch
    element on the leading axis and at zero on the other two; the weights' block is the whole slice. -/
theorem index_facts : ∀ t : Fin cfg1.N,
    win1_0.index t (0 : Fin 3) = win1_2.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (1 : Fin 3) = 0 ∧ win1_2.index t (2 : Fin 3) = 0
    ∧ win1_2.index t (0 : Fin 3) ≤ 1 :=
  (by decide +kernel : ∀ t : Fin grid1.N, _)

/-- Every batch element is some grid point's. -/
theorem index_onto : ∀ b : Fin 2, ∃ t : Fin cfg1.N, win1_2.index t = ![b.val, 0, 0] :=
  (by decide +kernel : ∀ b : Fin 2, ∃ t : Fin grid1.N, win1_2.index t = ![b.val, 0, 0])

/-- The batch element grid point `t` works on. -/
def batchOf (t : Fin cfg1.N) : Fin 2 := ⟨win1_2.index t (0 : Fin 3), by have := (index_facts t).2.2.2.2.2.2.2; omega⟩

/-- Entry `(p, q)` of the result's block at point `t` is entry `(batchOf t, p, q)` of the result. -/
theorem result_emb (t : Fin cfg1.N) (u : Fin 1) (p : Fin 128) (q : Fin 1024) :
    ((cfg1.win 2).blk t).view.emb (ix3 u p q) = ix3 (batchOf t) p q := by
  obtain ⟨e0, e1, e2, e3, e4, e5, e6, e7⟩ := index_facts t
  funext a; apply Fin.ext
  match a with
  | ⟨0, _⟩ => show win1_2.index t (0 : Fin 3) * 1 + 1 * u.val = win1_2.index t (0 : Fin 3); omega
  | ⟨1, _⟩ => show win1_2.index t (1 : Fin 3) * 128 + 1 * p.val = p.val; omega
  | ⟨2, _⟩ => show win1_2.index t (2 : Fin 3) * 1024 + 1 * q.val = q.val; omega

/-- The steps' block at point `t` is batch element `batchOf t` of the decoder steps. -/
theorem steps_read (c : Dev nD) (t : Fin cfg1.N) (p : Fin 128) (k : Fin 512) :
    iblk1 V c 0 t (ix3 (0 : Fin 1) p k) = V c main_arg1 (ix3 (batchOf t) p k) := by
  obtain ⟨e0, e1, e2, e3, e4, e5, e6, e7⟩ := index_facts t
  show V c main_arg1 (((cfg1.win 0).blk t).view.emb (ix3 (0 : Fin 1) p k)) = V c main_arg1 (ix3 (batchOf t) p k)
  refine congrArg (V c main_arg1) (funext fun a => Fin.ext ?_)
  match a with
  | ⟨0, _⟩ => show win1_0.index t (0 : Fin 3) * 1 + 1 * 0 = win1_2.index t (0 : Fin 3); omega
  | ⟨1, _⟩ => show win1_0.index t (1 : Fin 3) * 128 + 1 * p.val = p.val; omega
  | ⟨2, _⟩ => show win1_0.index t (2 : Fin 3) * 512 + 1 * k.val = k.val; omega

/-- The weights' block at every point is the whole weight slice. -/
theorem weights_read (c : Dev nD) (t : Fin cfg1.N) (q : Fin 1024) (k : Fin 512) :
    iblk1 V c 1 t (ix2 q k) = V c main_v1 (ix2 q k) := by
  obtain ⟨e0, e1, e2, e3, e4, e5, e6, e7⟩ := index_facts t
  show V c main_v1 (((cfg1.win 1).blk t).view.emb (ix2 q k)) = V c main_v1 (ix2 q k)
  refine congrArg (V c main_v1) (funext fun a => Fin.ext ?_)
  match a with
  | ⟨0, _⟩ => show win1_1.index t (0 : Fin 2) * 1024 + 1 * q.val = q.val; omega
  | ⟨1, _⟩ => show win1_1.index t (1 : Fin 2) * 512 + 1 * k.val = k.val; omega

/-- What point `t` writes back is block `t` of the projection of the arrays the region is entered with. -/
theorem flushed_eq (c : Dev nD) (t : Fin cfg1.N) :
    (dat1 V c).flushed 2 t = ((cfg1.win 2).blk t).view.read (Elt Ideal) (proj (V c main_arg1) (V c main_v1)) := by
  show (cfg1.win 2).cut (grid1.coords t) ((dat1 V c).after 2 t) = _
  rw [after1_2]
  unfold out1_2
  rw [View.canon_unit_zero zeros3]
  simp only [View.ld_unit_zero (S := S1x128x512) zeros3, View.ld_unit_zero (S := S1024x512) zeros2]
  funext j
  obtain ⟨u, p, q, rfl⟩ : ∃ (u : Fin 1) (p : Fin 128) (q : Fin 1024), j = ix3 u p q := ⟨j 0, j 1, j 2, eq_ix3 j⟩
  show k1_pay1 (F := Ideal) (iblk1 V c 0 t) (iblk1 V c 1 t) (ix3 u p q)
    = proj (V c main_arg1) (V c main_v1) (((cfg1.win 2).blk t).view.emb (ix3 u p q))
  rw [result_emb t u p q, proj_apply]
  refine (payload_apply (iblk1 V c 0 t) (iblk1 V c 1 t) u p q).trans ?_
  refine Finset.sum_congr rfl fun k _ => ?_
  rw [steps_read V c t p k, weights_read V c t q k]

/-- An index of the result is in point `t`'s block iff each coordinate is in the block's range on its axis. -/
theorem mem_blk (t : Fin cfg1.N) (i : S2x128x1024.Idx) :
    i ∈ ((cfg1.win 2).blk t).view.set ↔ ∀ a : Fin 3, win1_2.index t a * S1x128x1024.size a ≤ (i a).val ∧ (i a).val < win1_2.index t a * S1x128x1024.size a + S1x128x1024.size a := by
  show i ∈ ((View.whole main_v3).slice (win1_2.rect t)).set ↔ _
  rw [View.set_slice_whole, Rect.mem_set_unit]
  exact Iff.rfl

/-- The two blocks cover the result: index `(b, p, q)` is in the block of the point that works on `b`. -/
theorem cover (i : S2x128x1024.Idx) : ∃ t : Fin cfg1.N, (cfg1.win 2).flush t = true ∧ i ∈ ((cfg1.win 2).blk t).view.set := by
  have hi0 : (i 0).val < 2 := (i 0).isLt
  have hi1 : (i 1).val < 128 := (i 1).isLt
  have hi2 : (i 2).val < 1024 := (i 2).isLt
  obtain ⟨t, ht⟩ := index_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 128 ≤ (i 1).val ∧ (i 1).val < win1_2.index t (1 : Fin 3) * 128 + 128; omega
  | ⟨2, _⟩ => show win1_2.index t (2 : Fin 3) * 1024 ≤ (i 2).val ∧ (i 2).val < win1_2.index t (2 : Fin 3) * 1024 + 1024; omega

/-- The result array after the region: the projection of the steps by the weight slice, as the region found them. -/
theorem final (c : Dev nD) : (dat1 V c).arrAt 2 cfg1.N = proj (V c main_arg1) (V c main_v1) :=
  (dat1 V c).arrAt_eq_of_cover 2 _ (fun t _ => flushed_eq V c t) cover

end Blocks

end Cert.KernelIdeal.DecProj

end
-- ==== Proof.BroadcastAdd.lean ====
/-
  The third kernel region: the broadcast sum of the two projections.

  The grid walks the two batch elements and, within each, the 64 groups of 8 encoder frames. At `(b, g)` the body
  loads the `[8, 1024]` block of encoder-side rows `8g … 8g + 7` and the whole `[128, 1024]` decoder-side block of
  batch element `b`, gives the first a unit middle axis and the second a unit leading axis, broadcasts both to
  `[8, 128, 1024]` and adds: entry `(r, u, v)` of the stored block is `e[b, 8g + r, v] + d[b, u, v]`. The 128 blocks
  tile the result, which therefore ends as `joint e d`.
-/
import proofs.«139350_j2920577761292_1_alg».proof.Proof.Gen.KernelIdeal.Frame
import proofs.«139350_j2920577761292_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.BroadcastAdd

open Cert.KernelIdeal Cert.KernelIdeal.Gen Cert.Joint Idealize.ShloMosaic Idealize.ShloMosaic.TcCoe Idealize.ShloMosaic.ValueIdx
open Idealize.SL.Sem
open Idealize.ShloMosaic.Pipeline (Dat)

/-! ## The body's stored value at an index -/

/-- A `[8, 1024]` array given a unit middle axis reads, at `(r, z, v)`, the operand at `(r, v)`. -/
theorem rows_unit_mid (x : S8x1024.Idx → EReal) (r : Fin 8) (z : Fin 1) (v : Fin 1024) :
    shapeCast S8x1x1024 x shapeCasts_S8x1024_S8x1x1024 (ix3 r z v) = x (ix2 r v) :=
  shapeCast_apply x shapeCasts_S8x1024_S8x1x1024 _ _ (by
    have hz : z.val = 0 := by omega
    rw [Shape.rowMajor_val_two, Shape.rowMajor_val_three]
    show r.val * 1024 + v.val = (r.val * 1 + z.val) * 1024 + v.val
    rw [hz]; omega)

/-- The encoder-side rows broadcast along the decoder axis: `(r, u, v)` reads `(r, 0, v)`. -/
theorem bcast_rows (x : S8x1x1024.Idx → EReal) (r : Fin 8) (u : Fin 128) (v : Fin 1024) :
    broadcastTo S8x128x1024 x broadcasts_S8x1x1024_S8x128x1024 (ix3 r u v) = x (ix3 r (0 : Fin 1) v) :=
  broadcastTo_apply x broadcasts_S8x1x1024_S8x128x1024 (ix3 r u v) (ix3 r (0 : Fin 1) v) (fun a => match a with
    | ⟨0, _⟩ => by show r.val = if (8 : Nat) = 1 then 0 else r.val; rw [if_neg (by decide)]
    | ⟨1, _⟩ => by show 0 = if (1 : Nat) = 1 then 0 else u.val; rw [if_pos rfl]
    | ⟨2, _⟩ => by show v.val = if (1024 : Nat) = 1 then 0 else v.val; rw [if_neg (by decide)])

/-- The decoder-side block broadcast along the encoder rows: `(r, u, v)` reads `(0, u, v)`. -/
theorem bcast_steps (x : S1x128x1024.Idx → EReal) (r : Fin 8) (u : Fin 128) (v : Fin 1024) :
    broadcastTo S8x128x1024 x broadcasts_S1x128x1024_S8x128x1024 (ix3 r u v) = x (ix3 (0 : Fin 1) u v) :=
  broadcastTo_apply x broadcasts_S1x128x1024_S8x128x1024 (ix3 r u v) (ix3 (0 : Fin 1) u v) (fun a => match a with
    | ⟨0, _⟩ => by show 0 = if (1 : Nat) = 1 then 0 else r.val; rw [if_pos rfl]
    | ⟨1, _⟩ => by show u.val = if (128 : Nat) = 1 then 0 else u.val; rw [if_neg (by decide)]
    | ⟨2, _⟩ => by show v.val = if (1024 : Nat) = 1 then 0 else v.val; rw [if_neg (by decide)])

/-- Entry `(r, u, v)` of the stored block: encoder-side row `r` plus decoder-side row `u`, at vocabulary entry `v`. -/
theorem payload_apply (x0 : Vec Ideal S1x8x1024 .f32) (x1 : Vec Ideal S1x128x1024 .f32) (z : Fin 1) (r : Fin 8) (u : Fin 128) (v : Fin 1024) :
    k2_pay1 (F := Ideal) x0 x1 (ix4 z r u v) = x0 (ix3 (0 : Fin 1) r v) + x1 (ix3 (0 : Fin 1) u v) := by
  unfold k2_pay1
  refine (shapeCast_abc_1abc_apply _ shapeCasts_S8x128x1024_S1x8x128x1024 z r u v).trans ?_
  rw [addf_apply, bcast_rows, bcast_steps, rows_unit_mid, shapeCast_1ab_ab_apply, shapeCast_ab_1ab_apply, shapeCast_1ab_ab_apply]

/-! ## From the blocks to the array, at any contents `V` the region is entered from -/

section Blocks

variable (V : (c : Dev nD) → (b : Ref sig .tc) → Buf (Elt Ideal) ((c : Thread nD τ).loc b))

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The printed index maps over the 128 grid points: the encoder-side block moves with the result's block on the batch
    and the row-group axes, the decoder-side block on the batch axis only, and every other block index is zero. -/
theorem index_facts : ∀ t : Fin cfg2.N,
    win2_0.index t (0 : Fin 3) = win2_2.index t (0 : Fin 4)
    ∧ win2_0.index t (1 : Fin 3) = win2_2.index t (1 : Fin 4)
    ∧ win2_0.index t (2 : Fin 3) = 0
    ∧ win2_1.index t (0 : Fin 3) = win2_2.index t (0 : Fin 4)
    ∧ win2_1.index t (1 : Fin 3) = 0 ∧ win2_1.index t (2 : Fin 3) = 0
    ∧ win2_2.index t (2 : Fin 4) = 0 ∧ win2_2.index t (3 : Fin 4) = 0
    ∧ win2_2.index t (0 : Fin 4) ≤ 1 ∧ win2_2.index t (1 : Fin 4) ≤ 63 :=
  (by decide +kernel : ∀ t : Fin grid2.N, _)

/-- Every pair of a batch element and a group of eight rows is some grid point's. -/
theorem index_onto : ∀ (b : Fin 2) (g : Fin 64), ∃ t : Fin cfg2.N, win2_2.index t = ![b.val, g.val, 0, 0] :=
  (by decide +kernel : ∀ (b : Fin 2) (g : Fin 64), ∃ t : Fin grid2.N, win2_2.index t = ![b.val, g.val, 0, 0])

/-- The batch element grid point `t` works on, -/
def batchOf (t : Fin cfg2.N) : Fin 2 := ⟨win2_2.index t (0 : Fin 4), by have := (index_facts t).2.2.2.2.2.2.2.2.1; omega⟩
/-- and the encoder frame its row `r` is. -/
def rowOf (t : Fin cfg2.N) (r : Fin 8) : Fin 512 :=
  ⟨win2_2.index t (1 : Fin 4) * 8 + r.val, by have := (index_facts t).2.2.2.2.2.2.2.2.2; have := r.isLt; omega⟩

/-- Entry `(r, u, v)` of the result's block at point `t` is entry `(batchOf t, rowOf t r, u, v)` of the result. -/
theorem result_emb (t : Fin cfg2.N) (z : Fin 1) (r : Fin 8) (u : Fin 128) (v : Fin 1024) :
    ((cfg2.win 2).blk t).view.emb (ix4 z r u v) = ix4 (batchOf t) (rowOf t r) u v := by
  obtain ⟨e0, e1, e2, e3, e4, e5, e6, e7, e8, e9⟩ := index_facts t
  funext a; apply Fin.ext
  match a with
  | ⟨0, _⟩ => show win2_2.index t (0 : Fin 4) * 1 + 1 * z.val = win2_2.index t (0 : Fin 4); omega
  | ⟨1, _⟩ => show win2_2.index t (1 : Fin 4) * 8 + 1 * r.val = win2_2.index t (1 : Fin 4) * 8 + r.val; omega
  | ⟨2, _⟩ => show win2_2.index t (2 : Fin 4) * 128 + 1 * u.val = u.val; omega
  | ⟨3, _⟩ => show win2_2.index t (3 : Fin 4) * 1024 + 1 * v.val = v.val; omega

/-- The encoder-side block at point `t` holds rows `rowOf t ·` of batch element `batchOf t`. -/
theorem enc_read (c : Dev nD) (t : Fin cfg2.N) (r : Fin 8) (v : Fin 1024) :
    iblk2 V c 0 t (ix3 (0 : Fin 1) r v) = V c main_v2 (ix3 (batchOf t) (rowOf t r) v) := by
  obtain ⟨e0, e1, e2, e3, e4, e5, e6, e7, e8, e9⟩ := index_facts t
  show V c main_v2 (((cfg2.win 0).blk t).view.emb (ix3 (0 : Fin 1) r v)) = V c main_v2 (ix3 (batchOf t) (rowOf t r) v)
  refine congrArg (V c main_v2) (funext fun a => Fin.ext ?_)
  match a with
  | ⟨0, _⟩ => show win2_0.index t (0 : Fin 3) * 1 + 1 * 0 = win2_2.index t (0 : Fin 4); omega
  | ⟨1, _⟩ => show win2_0.index t (1 : Fin 3) * 8 + 1 * r.val = win2_2.index t (1 : Fin 4) * 8 + r.val; omega
  | ⟨2, _⟩ => show win2_0.index t (2 : Fin 3) * 1024 + 1 * v.val = v.val; omega

/-- The decoder-side block at point `t` is batch element `batchOf t` of the decoder-side projection. -/
theorem dec_read (c : Dev nD) (t : Fin cfg2.N) (u : Fin 128) (v : Fin 1024) :
    iblk2 V c 1 t (ix3 (0 : Fin 1) u v) = V c main_v3 (ix3 (batchOf t) u v) := by
  obtain ⟨e0, e1, e2, e3, e4, e5, e6, e7, e8, e9⟩ := index_facts t
  show V c main_v3 (((cfg2.win 1).blk t).view.emb (ix3 (0 : Fin 1) u v)) = V c main_v3 (ix3 (batchOf t) u v)
  refine congrArg (V c main_v3) (funext fun a => Fin.ext ?_)
  match a with
  | ⟨0, _⟩ => show win2_1.index t (0 : Fin 3) * 1 + 1 * 0 = win2_2.index t (0 : Fin 4); omega
  | ⟨1, _⟩ => show win2_1.index t (1 : Fin 3) * 128 + 1 * u.val = u.val; omega
  | ⟨2, _⟩ => show win2_1.index t (2 : Fin 3) * 1024 + 1 * v.val = v.val; omega

/-- What point `t` writes back is block `t` of the broadcast sum of the arrays the region is entered with. -/
theorem flushed_eq (c : Dev nD) (t : Fin cfg2.N) :
    (dat2 V c).flushed 2 t = ((cfg2.win 2).blk t).view.read (Elt Ideal) (joint (V c main_v2) (V c main_v3)) := by
  show (cfg2.win 2).cut (grid2.coords t) ((dat2 V c).after 2 t) = _
  rw [after2_2]
  unfold out2_2
  rw [View.canon_unit_zero zeros4]
  simp only [View.ld_unit_zero (S := S1x8x1024) zeros3, View.ld_unit_zero (S := S1x128x1024) zeros3]
  funext j
  obtain ⟨z, r, u, v, rfl⟩ : ∃ (z : Fin 1) (r : Fin 8) (u : Fin 128) (v : Fin 1024), j = ix4 z r u v :=
    ⟨j 0, j 1, j 2, j 3, eq_ix4 j⟩
  show k2_pay1 (F := Ideal) (iblk2 V c 0 t) (iblk2 V c 1 t) (ix4 z r u v)
    = joint (V c main_v2) (V c main_v3) (((cfg2.win 2).blk t).view.emb (ix4 z r u v))
  rw [result_emb t z r u v, joint_apply]
  refine (payload_apply (iblk2 V c 0 t) (iblk2 V c 1 t) z r u v).trans ?_
  rw [enc_read V c t r v, dec_read V c t u v]

/-- An index of the result is in point `t`'s block iff each coordinate is in the block's range on its axis. -/
theorem mem_blk (t : Fin cfg2.N) (i : S2x512x128x1024.Idx) :
    i ∈ ((cfg2.win 2).blk t).view.set ↔ ∀ a : Fin 4, win2_2.index t a * S1x8x128x1024.size a ≤ (i a).val ∧ (i a).val < win2_2.index t a * S1x8x128x1024.size a + S1x8x128x1024.size a := by
  show i ∈ ((View.whole main_v4).slice (win2_2.rect t)).set ↔ _
  rw [View.set_slice_whole, Rect.mem_set_unit]
  exact Iff.rfl

/-- The 128 blocks cover the result: index `(b, s, u, v)` is in the block of the point that works on batch element `b`
    and row group `s / 8`. -/
theorem cover (i : S2x512x128x1024.Idx) : ∃ t : Fin cfg2.N, (cfg2.win 2).flush t = true ∧ i ∈ ((cfg2.win 2).blk t).view.set := by
  have hi0 : (i 0).val < 2 := (i 0).isLt
  have hi1 : (i 1).val < 512 := (i 1).isLt
  have hi2 : (i 2).val < 128 := (i 2).isLt
  have hi3 : (i 3).val < 1024 := (i 3).isLt
  obtain ⟨t, ht⟩ := index_onto ⟨(i 0).val, hi0⟩ ⟨(i 1).val / 8, by omega⟩
  have q0 : win2_2.index t (0 : Fin 4) = (i 0).val := congrFun ht 0
  have q1 : win2_2.index t (1 : Fin 4) = (i 1).val / 8 := congrFun ht 1
  have q2 : win2_2.index t (2 : Fin 4) = 0 := congrFun ht 2
  have q3 : win2_2.index t (3 : Fin 4) = 0 := congrFun ht 3
  refine ⟨t, flush2_2 t, ?_⟩
  rw [mem_blk]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 8 ≤ (i 1).val ∧ (i 1).val < win2_2.index t (1 : Fin 4) * 8 + 8; omega
  | ⟨2, _⟩ => show win2_2.index t (2 : Fin 4) * 128 ≤ (i 2).val ∧ (i 2).val < win2_2.index t (2 : Fin 4) * 128 + 128; omega
  | ⟨3, _⟩ => show win2_2.index t (3 : Fin 4) * 1024 ≤ (i 3).val ∧ (i 3).val < win2_2.index t (3 : Fin 4) * 1024 + 1024; omega

/-- The result array after the region: the broadcast sum of the two projections, as the region found them. -/
theorem final (c : Dev nD) : (dat2 V c).arrAt 2 cfg2.N = joint (V c main_v2) (V c main_v3) :=
  (dat2 V c).arrAt_eq_of_cover 2 _ (fun t _ => flushed_eq V c t) cover

end Blocks

end Cert.KernelIdeal.BroadcastAdd

end
-- ==== Proof.KernelValue.lean ====
/-
  The kernel program's result as one function of its arguments.

  @main slices the weight matrix into its left and right halves on the host, runs the encoder-side projection, the
  decoder-side projection and the broadcast sum as three kernel regions, and returns the last one's result. Each
  region leaves its result array at its function of the arrays it was entered with, and touches nothing else; so,
  walking back from the last boundary: the result is `joint` of the two projection arrays as the third region found
  them, which are what the first and second regions left, namely `proj` of the frames (the steps) and the left (the
  right) weight half, as launched and as the host wrote them.
-/
import proofs.«139350_j2920577761292_1_alg».proof.Proof.EncProj
import proofs.«139350_j2920577761292_1_alg».proof.Proof.DecProj
import proofs.«139350_j2920577761292_1_alg».proof.Proof.BroadcastAdd
import proofs.«139350_j2920577761292_1_alg».proof.Proof.KernelRun
import Idealize.ShloMosaic.Lib.StableHlo.Run

set_option maxRecDepth 16384

noncomputable section

namespace Cert.KernelIdeal.Whole

open Cert.KernelIdeal Cert.KernelIdeal.Gen Cert.Joint Idealize.ShloMosaic Idealize.ShloMosaic.TcCoe Idealize.ShloMosaic.StableHlo
open Idealize.SL.Sem

variable (m : (ℓ : Loc nD τ sig) → Buf (Elt Ideal) ℓ) (ρ : Dev nD → PrngReg)

/-- The left half of the weight matrix, columns `0 … 511`. -/
abbrev wEnc (c : Dev nD) : S1024x512.Idx → EReal :=
  extractStridedSlice S1024x512 ![0, 0] (m ((c.tc : Thread nD τ).loc main_arg2)) slices_S1024x1024_S1024x512_0_0
/-- The right half, columns `512 … 1023`. -/
abbrev wDec (c : Dev nD) : S1024x512.Idx → EReal :=
  extractStridedSlice S1024x512 ![0, 512] (m ((c.tc : Thread nD τ).loc main_arg2)) slices_S1024x1024_S1024x512_0_512

/-- The result of the whole program, from the launch memory. -/
def out (c : Dev nD) : S2x512x128x1024.Idx → EReal :=
  joint (proj (m ((c.tc : Thread nD τ).loc main_arg0)) (wEnc m c)) (proj (m ((c.tc : Thread nD τ).loc main_arg1)) (wDec m c))

/-! ## What the host leaves before the first region -/

theorem frames_at_entry (c : Dev nD) : V1 m ρ c main_arg0 = m ((c.tc : Thread nD τ).loc main_arg0) := by
  show StableHlo.after hostOps0 (W0 m ρ c) (Proc.devRef .tc main_arg0) = _
  after_results
theorem steps_after_host (c : Dev nD) : W1 m ρ c (Proc.devRef .tc main_arg1) = m ((c.tc : Thread nD τ).loc main_arg1) := by
  show StableHlo.after hostOps0 (W0 m ρ c) (Proc.devRef .tc main_arg1) = _
  after_results
theorem wEnc_at_entry (c : Dev nD) : V1 m ρ c main_v0 = wEnc m c := by
  show StableHlo.after hostOps0 (W0 m ρ c) (Proc.devRef .tc main_v0) = _
  after_results
theorem wDec_after_host (c : Dev nD) : W1 m ρ c (Proc.devRef .tc main_v1) = wDec m c := by
  show StableHlo.after hostOps0 (W0 m ρ c) (Proc.devRef .tc main_v1) = _
  after_results

/-! ## The second region's entry: the first region wrote neither the steps nor the right weight half -/

theorem steps_at_entry (c : Dev nD) : V2 m ρ c main_arg1 = m ((c.tc : Thread nD τ).loc main_arg1) :=
  (W2_of_ne m ρ c main_arg1 (by decide)).trans (steps_after_host m ρ c)
theorem wDec_at_entry (c : Dev nD) : V2 m ρ c main_v1 = wDec m c :=
  (W2_of_ne m ρ c main_v1 (by decide)).trans (wDec_after_host m ρ c)

/-! ## The third region's entry: the two projections -/

/-- The encoder-side projection: written by the first region, not touched by the second. -/
theorem encProj_at_entry (c : Dev nD) :
    V3 m ρ c main_v2 = proj (m ((c.tc : Thread nD τ).loc main_arg0)) (wEnc m c) := by
  refine (W3_of_ne m ρ c main_v2 (by decide)).trans ?_
  refine (W2_arr m ρ c 2).trans ?_
  rw [EncProj.final (V1 m ρ) c, frames_at_entry m ρ c, wEnc_at_entry m ρ c]

/-- The decoder-side projection: written by the second region. -/
theorem decProj_at_entry (c : Dev nD) :
    V3 m ρ c main_v3 = proj (m ((c.tc : Thread nD τ).loc main_arg1)) (wDec m c) := by
  refine (W3_arr m ρ c 2).trans ?_
  rw [DecProj.final (V2 m ρ) c, steps_at_entry m ρ c, wDec_at_entry m ρ c]

/-! ## The result -/

/-- The last boundary's contents at @main's result: the third region's write-backs. -/
theorem result (c : Dev nD) : W4 m ρ c (Proc.devRef .tc main_v4) = out m c := by
  refine (W4_arr m ρ c 2).trans ?_
  rw [BroadcastAdd.final (V3 m ρ) c, encProj_at_entry m ρ c, decProj_at_entry m ρ c]
  rfl

/-- Every weakly fair execution of the kernel program terminates with its result at `out` of the launch memory and
    its arguments unchanged. -/
theorem run : θ_run defs (onTc (τ := τ) (main (F := Ideal))) ⟨m, fun _ => 0, ρ⟩ (fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (Named.run_named m ρ)

end Cert.KernelIdeal.Whole

end
-- ==== Proof.RefValue.lean ====
/-
  The reference, read index by index.

  The reference slices the weight matrix into its two halves, projects the encoder frames by the left half and the
  decoder steps by the right half (two `dot_general`s contracting the feature axis), broadcasts each projection
  along the other's sequence axis and adds. At index `(b, t, u, v)` that is
  `∑ k, enc[b, t, k] · W_enc[v, k] + ∑ k, dec[b, u, k] · W_dec[v, k]`: the function `joint (proj · ·) (proj · ·)` of the
  arguments and the two slices.
-/
import proofs.«139350_j2920577761292_1_alg».proof.Proof.Gen.ReferenceIdeal.Read
import proofs.«139350_j2920577761292_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Cert.Joint
open Idealize.ShloMosaic Idealize.ShloMosaic.ValueIdx

/-! ## The composed index maps of the broadcasts and the products, by coordinates -/

theorem enc_lhs (b : Fin 2) (s : Fin 512) (u : Fin 128) (v : Fin 1024) (k : Fin 512) :
    lidx_main_v2 (idx_main_v4 (idx_main_v6 (ix4 b s u v))) k = ix3 b s k :=
  funext fun a => Fin.ext (by match a with | ⟨0, _⟩ => rfl | ⟨1, _⟩ => rfl | ⟨2, _⟩ => rfl)
theorem enc_rhs (b : Fin 2) (s : Fin 512) (u : Fin 128) (v : Fin 1024) (k : Fin 512) :
    ridx_main_v2 (idx_main_v4 (idx_main_v6 (ix4 b s u v))) k = ix2 v k :=
  funext fun a => Fin.ext (by match a with | ⟨0, _⟩ => rfl | ⟨1, _⟩ => rfl)
theorem dec_lhs (b : Fin 2) (s : Fin 512) (u : Fin 128) (v : Fin 1024) (k : Fin 512) :
    lidx_main_v3 (idx_main_v5 (idx_main_v7 (ix4 b s u v))) k = ix3 b u k :=
  funext fun a => Fin.ext (by match a with | ⟨0, _⟩ => rfl | ⟨1, _⟩ => rfl | ⟨2, _⟩ => rfl)
theorem dec_rhs (b : Fin 2) (s : Fin 512) (u : Fin 128) (v : Fin 1024) (k : Fin 512) :
    ridx_main_v3 (idx_main_v5 (idx_main_v7 (ix4 b s u v))) k = ix2 v k :=
  funext fun a => Fin.ext (by match a with | ⟨0, _⟩ => rfl | ⟨1, _⟩ => rfl)

/-- The reference's result is the broadcast sum of the two projections by the two weight slices. -/
theorem result_eq (x0 : (⟨S2x512x512, .f32⟩ : BufTy).Contents (Elt Ideal)) (x1 : (⟨S2x128x512, .f32⟩ : BufTy).Contents (Elt Ideal))
    (x2 : (⟨S1024x1024, .f32⟩ : BufTy).Contents (Elt Ideal)) :
    val_main_v8 (F := Ideal) x0 x1 x2
      = joint (proj x0 (val_main_v0 (F := Ideal) x2)) (proj x1 (val_main_v1 (F := Ideal) x2)) := by
  funext i
  obtain ⟨b, s, u, v, rfl⟩ : ∃ (b : Fin 2) (s : Fin 512) (u : Fin 128) (v : Fin 1024), i = ix4 b s u v :=
    ⟨i 0, i 1, i 2, i 3, eq_ix4 i⟩
  rw [val_main_v8_apply, val_main_v6_apply, val_main_v4_apply, val_main_v2_apply, val_main_v7_apply, val_main_v5_apply,
    val_main_v3_apply, joint_apply, proj_apply, proj_apply]
  simp only [enc_lhs, enc_rhs, dec_lhs, dec_rhs]
  rfl

end Cert.ReferenceIdeal.RefValue

end
-- ==== Proof.lean ====
/-
  The proof of `Cert.Claim` for a joint network's projection: the kernel program computes the encoder-side and the
  decoder-side linear projections in two matrix-product regions (operands narrowed to bf16, accumulated in f32) and
  adds them, broadcast against each other, in a third; the reference does the same with two `dot_general`s,
  broadcasts and one addition on the host.

  Over the extended reals a change of float format is the identity and a product accumulated into zero is the plain
  sum of products, so both programs end with
    `out[b, t, u, v] = ∑ k, enc[b, t, k] · W[v, k] + ∑ k, dec[b, u, k] · W[v, 512 + k]`
  — the same sums in the same order on both sides, so no law of the extended reals beyond `0 + x = x` is used and the
  inputs' finiteness is never opened.

  * The three frames: the two kernel programs' are the generated frame certificates; the reference's is its generated
    run with the result dropped.
  * `preserves`: the ideal pass rewrote nothing, so the conjunct is `True`.
  * `algebraic`: the kernel program's run with its result named (Proof/KernelRun.lean) and read region by region
    (Proof/EncProj.lean, Proof/DecProj.lean, Proof/BroadcastAdd.lean, chained in Proof/KernelValue.lean) ends at
    `joint (proj enc W_enc) (proj dec W_dec)` (Proof/Spec.lean); the reference's generated run, read index by index
    (Proof/RefValue.lean), ends at the same function of arguments that agree.
-/
import proofs.«139350_j2920577761292_1_alg».proof.Defs
import proofs.«139350_j2920577761292_1_alg».proof.Proof.Gen.Kernel
import proofs.«139350_j2920577761292_1_alg».proof.Proof.Gen.Kernel.Frame
import proofs.«139350_j2920577761292_1_alg».proof.Proof.Gen.KernelIdeal
import proofs.«139350_j2920577761292_1_alg».proof.Proof.Gen.KernelIdeal.Frame
import proofs.«139350_j2920577761292_1_alg».proof.Proof.Gen.ReferenceIdeal
import proofs.«139350_j2920577761292_1_alg».proof.Proof.Gen.Pre_finite_inputs
import proofs.«139350_j2920577761292_1_alg».proof.Proof.Gen.ReferenceIdeal.Run
import proofs.«139350_j2920577761292_1_alg».proof.Proof.Gen.ReferenceIdeal.Read
import proofs.«139350_j2920577761292_1_alg».proof.Proof.KernelValue
import proofs.«139350_j2920577761292_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `joint (proj enc W_enc) (proj dec W_dec)` of their arguments, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
